-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200 : Shape := ⟨2, ![4096, 200]⟩
abbrev S64000x128 : Shape := ⟨2, ![64000, 128]⟩
abbrev S192000x32 : Shape := ⟨2, ![192000, 32]⟩
abbrev S32x128 : Shape := ⟨2, ![32, 128]⟩
abbrev S744000x8 : Shape := ⟨2, ![744000, 8]⟩
abbrev S8x128 : Shape := ⟨2, ![8, 128]⟩
abbrev S_ : Shape := ⟨0, ![]⟩

class Facts : Prop where
  bcast_S_S64000x128 : S_.BroadcastsInDim S64000x128 (![] : Fin 0 → Fin S64000x128.rank)
  reducesTo_S64000x128_S_d0_1 : S64000x128.ReducesTo [0, 1] S_
  h_S_ : 0 < S_.numel
  bcast_S_S192000x32 : S_.BroadcastsInDim S192000x32 (![] : Fin 0 → Fin S192000x32.rank)
  reducesTo_S192000x32_S_d0_1 : S192000x32.ReducesTo [0, 1] S_
  bcast_S_S32x128 : S_.BroadcastsInDim S32x128 (![] : Fin 0 → Fin S32x128.rank)
  reducesTo_S32x128_S_d0_1 : S32x128.ReducesTo [0, 1] S_
  bcast_S_S744000x8 : S_.BroadcastsInDim S744000x8 (![] : Fin 0 → Fin S744000x8.rank)
  reducesTo_S744000x8_S_d0_1 : S744000x8.ReducesTo [0, 1] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg5 : FVec F S8x128 .f32) (main_v13 : IVec S_ 1) (main_v16 : IVec S744000x8 1) : IVec S_ 1 :=
  let main_c_5 : IVec S_ 1 := constantI S_ 1 1#1
  let main_v17 : IVec S_ 1 := (fun x v => Host.reduce IntOp.andi x v reducesTo_S744000x8_S_d0_1 h_S_) main_v16 main_c_5
  let main_v18 : IVec S_ 1 := andi main_v13 main_v17
  let main_v19 : FVec F S8x128 .f32 := Host.absf main_arg5
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  main_v23

def fn {F : FTy → Type} [FloatOps F] (main_arg0 : IVec S4096x200 32) (main_arg1 : FVec F S64000x128 .f32) (main_arg2 : FVec F S192000x32 .f32) (main_arg3 : FVec F S32x128 .f32) (main_arg4 : FVec F S744000x8 .f32) (main_arg5 : FVec F S8x128 .f32) : IVec S_ 1 :=
  let main_v0 : FVec F S64000x128 .f32 := Host.absf main_arg1
  let main_cst : FVec F S_ .f32 := constant S_ .f32 0x7F800000#32
  let main_v1 : FVec F S64000x128 .f32 := broadcastInDim S64000x128 ![] bcast_S_S64000x128 main_cst
  let main_v2 : IVec S64000x128 1 := cmpf .olt main_v0 main_v1
  let main_c : IVec S_ 1 := constantI S_ 1 1#1
  let main_v3 : IVec S_ 1 := (fun x v => Host.reduce IntOp.andi x v reducesTo_S64000x128_S_d0_1 h_S_) main_v2 main_c
  let main_v4 : FVec F S192000x32 .f32 := Host.absf main_arg2
  let main_cst_0 : FVec F S_ .f32 := constant S_ .f32 0x7F800000#32
  let main_v5 : FVec F S192000x32 .f32 := broadcastInDim S192000x32 ![] bcast_S_S192000x32 main_cst_0
  let main_v6 : IVec S192000x32 1 := cmpf .olt main_v4 main_v5
  let main_c_1 : IVec S_ 1 := constantI S_ 1 1#1
  let main_v7 : IVec S_ 1 := (fun x v => Host.reduce IntOp.andi x v reducesTo_S192000x32_S_d0_1 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S744000x8 .f32 := Host.absf main_arg4
  let main_cst_4 : FVec F S_ .f32 := constant S_ .f32 0x7F800000#32
  let main_v15 : FVec F S744000x8 .f32 := broadcastInDim S744000x8 ![] bcast_S_S744000x8 main_cst_4
  let main_v16 : IVec S744000x8 1 := cmpf .olt main_v14 main_v15
  fn_part1 (F := F) main_arg5 main_v13 main_v16
-- ==== Kernel.lean ====
abbrev S4096x200 : Shape := ⟨2, ![4096, 200]⟩
abbrev S64000x128 : Shape := ⟨2, ![64000, 128]⟩
abbrev S192000x32 : Shape := ⟨2, ![192000, 32]⟩
abbrev S32x128 : Shape := ⟨2, ![32, 128]⟩
abbrev S744000x8 : Shape := ⟨2, ![744000, 8]⟩
abbrev S8x128 : Shape := ⟨2, ![8, 128]⟩
abbrev S_ : Shape := ⟨0, ![]⟩
abbrev S4096x200x1 : Shape := ⟨3, ![4096, 200, 1]⟩
abbrev S4096x200x128 : Shape := ⟨3, ![4096, 200, 128]⟩
abbrev S4096x200x32 : Shape := ⟨3, ![4096, 200, 32]⟩
abbrev S4096x200x8 : Shape := ⟨3, ![4096, 200, 8]⟩
abbrev S819200x128 : Shape := ⟨2, ![819200, 128]⟩
abbrev S819200x32 : Shape := ⟨2, ![819200, 32]⟩
abbrev S819200x8 : Shape := ⟨2, ![819200, 8]⟩
abbrev S4096x128 : Shape := ⟨2, ![4096, 128]⟩
abbrev S4096x32 : Shape := ⟨2, ![4096, 32]⟩
abbrev S4096x8 : Shape := ⟨2, ![4096, 8]⟩

abbrev nBuf : Space → Nat
  | .hbm => 92
  | .vmem => 10
  | .smem => 0
  | _ => 0

abbrev bufTy : (tb : Table) → Fin (tcTables nBuf tb) → BufTy
  | .hbm, ⟨0, _⟩ => ⟨S4096x200, .i32⟩
  | .hbm, ⟨1, _⟩ => ⟨S64000x128, .f32⟩
  | .hbm, ⟨2, _⟩ => ⟨S192000x32, .f32⟩
  | .hbm, ⟨3, _⟩ => ⟨S32x128, .f32⟩
  | .hbm, ⟨4, _⟩ => ⟨S744000x8, .f32⟩
  | .hbm, ⟨5, _⟩ => ⟨S8x128, .f32⟩
  | .hbm, ⟨6, _⟩ => ⟨S_, .i32⟩
  | .hbm, ⟨7, _⟩ => ⟨S4096x200, .i32⟩
  | .hbm, ⟨8, _⟩ => ⟨S4096x200, .i1⟩
  | .hbm, ⟨9, _⟩ => ⟨S_, .i32⟩
  | .hbm, ⟨10, _⟩ => ⟨S4096x200, .i32⟩
  | .hbm, ⟨11, _⟩ => ⟨S4096x200, .i1⟩
  | .hbm, ⟨12, _⟩ => ⟨S4096x200, .i1⟩
  | .hbm, ⟨13, _⟩ => ⟨S_, .i32⟩
  | .hbm, ⟨14, _⟩ => ⟨S4096x200, .i32⟩
  | .hbm, ⟨15, _⟩ => ⟨S4096x200, .i32⟩
  | .hbm, ⟨16, _⟩ => ⟨S_, .i32⟩
  | .hbm, ⟨17, _⟩ => ⟨S_, .i32⟩
  | .hbm, ⟨18, _⟩ => ⟨S4096x200, .i32⟩
  | .hbm, ⟨19, _⟩ => ⟨S4096x200, .i32⟩
  | .hbm, ⟨20, _⟩ => ⟨S_, .i32⟩
  | .hbm, ⟨21, _⟩ => ⟨S4096x200, .i32⟩
  | .hbm, ⟨22, _⟩ => ⟨S4096x200, .i1⟩
  | .hbm, ⟨23, _⟩ => ⟨S_, .i32⟩
  | .hbm, ⟨24, _⟩ => ⟨S4096x200, .i32⟩
  | .hbm, ⟨25, _⟩ => ⟨S4096x200, .i32⟩
  | .hbm, ⟨26, _⟩ => ⟨S4096x200, .i32⟩
  | .hbm, ⟨27, _⟩ => ⟨S4096x200x1, .i32⟩
  | .hbm, ⟨28, _⟩ => ⟨S4096x200x128, .f32⟩
  | .hbm, ⟨29, _⟩ => ⟨S4096x200x1, .i1⟩
  | .hbm, ⟨30, _⟩ => ⟨S4096x200x1, .f32⟩
  | .hbm, ⟨31, _⟩ => ⟨S4096x200x128, .f32⟩
  | .hbm, ⟨32, _⟩ => ⟨S4096x200x128, .f32⟩
  | .hbm, ⟨33, _⟩ => ⟨S_, .i32⟩
  | .hbm, ⟨34, _⟩ => ⟨S4096x200, .i32⟩
  | .hbm, ⟨35, _⟩ => ⟨S4096x200, .i1⟩
  | .hbm, ⟨36, _⟩ => ⟨S_, .i32⟩
  | .hbm, ⟨37, _⟩ => ⟨S4096x200, .i32⟩
  | .hbm, ⟨38, _⟩ => ⟨S4096x200, .i1⟩
  | .hbm, ⟨39, _⟩ => ⟨S4096x200, .i1⟩
  | .hbm, ⟨40, _⟩ => ⟨S_, .i32⟩
  | .hbm, ⟨41, _⟩ => ⟨S4096x200, .i32⟩
  | .hbm, ⟨42, _⟩ => ⟨S4096x200, .i32⟩
  | .hbm, ⟨43, _⟩ => ⟨S_, .i32⟩
  | .hbm, ⟨44, _⟩ => ⟨S_, .i32⟩
  | .hbm, ⟨45, _⟩ => ⟨S4096x200, .i32⟩
  | .hbm, ⟨46, _⟩ => ⟨S4096x200, .i32⟩
  | .hbm, ⟨47, _⟩ => ⟨S_, .i32⟩
  | .hbm, ⟨48, _⟩ => ⟨S4096x200, .i32⟩
  | .hbm, ⟨49, _⟩ => ⟨S4096x200, .i1⟩
  | .hbm, ⟨50, _⟩ => ⟨S_, .i32⟩
  | .hbm, ⟨51, _⟩ => ⟨S4096x200, .i32⟩
  | .hbm, ⟨52, _⟩ => ⟨S4096x200, .i32⟩
  | .hbm, ⟨53, _⟩ => ⟨S4096x200, .i32⟩
  | .hbm, ⟨54, _⟩ => ⟨S4096x200x1, .i32⟩
  | .hbm, ⟨55, _⟩ => ⟨S4096x200x32, .f32⟩
  | .hbm, ⟨56, _⟩ => ⟨S4096x200x1, .i1⟩
  | .hbm, ⟨57, _⟩ => ⟨S4096x200x1, .f32⟩
  | .hbm, ⟨58, _⟩ => ⟨S4096x200x32, .f32⟩
  | .hbm, ⟨59, _⟩ => ⟨S4096x200x32, .f32⟩
  | .hbm, ⟨60, _⟩ => ⟨S_, .i32⟩
  | .hbm, ⟨61, _⟩ => ⟨S4096x200, .i32⟩
  | .hbm, ⟨62, _⟩ => ⟨S4096x200, .i1⟩
  | .hbm, ⟨63, _⟩ => ⟨S_, .i32⟩
  | .hbm, ⟨64, _⟩ => ⟨S4096x200, .i32⟩
  | .hbm, ⟨65, _⟩ => ⟨S4096x200, .i1⟩
  | .hbm, ⟨66, _⟩ => ⟨S4096x200, .i1⟩
  | .hbm, ⟨67, _⟩ => ⟨S_, .i32⟩
  | .hbm, ⟨68, _⟩ => ⟨S4096x200, .i32⟩
  | .hbm, ⟨69, _⟩ => ⟨S4096x200, .i32⟩
  | .hbm, ⟨70, _⟩ => ⟨S_, .i32⟩
  | .hbm, ⟨71, _⟩ => ⟨S_, .i32⟩
  | .hbm, ⟨72, _⟩ => ⟨S4096x200, .i32⟩
  | .hbm, ⟨73, _⟩ => ⟨S4096x200, .i32⟩
  | .hbm, ⟨74, _⟩ => ⟨S_, .i32⟩
  | .hbm, ⟨75, _⟩ => ⟨S4096x200, .i32⟩
  | .hbm, ⟨76, _⟩ => ⟨S4096x200, .i1⟩
  | .hbm, ⟨77, _⟩ => ⟨S_, .i32⟩
  | .hbm, ⟨78, _⟩ => ⟨S4096x200, .i32⟩
  | .hbm, ⟨79, _⟩ => ⟨S4096x200, .i32⟩
  | .hbm, ⟨80, _⟩ => ⟨S4096x200, .i32⟩
  | .hbm, ⟨81, _⟩ => ⟨S4096x200x1, .i32⟩
  | .hbm, ⟨82, _⟩ => ⟨S4096x200x8, .f32⟩
  | .hbm, ⟨83, _⟩ => ⟨S4096x200x1, .i1⟩
  | .hbm, ⟨84, _⟩ => ⟨S4096x200x1, .f32⟩
  | .hbm, ⟨85, _⟩ => ⟨S4096x200x8, .f32⟩
  | .hbm, ⟨86, _⟩ => ⟨S4096x200x8, .f32⟩
  | .hbm, ⟨87, _⟩ => ⟨S819200x128, .f32⟩
  | .hbm, ⟨88, _⟩ => ⟨S819200x32, .f32⟩
  | .hbm, ⟨89, _⟩ => ⟨S819200x8, .f32⟩
  | .hbm, ⟨90, _⟩ => ⟨S819200x128, .f32⟩
  | .hbm, ⟨91, _⟩ => ⟨S4096x200x128, .f32⟩
  | .local _ .vmem, ⟨0, _⟩ => ⟨S4096x128, .f32⟩
  | .local _ .vmem, ⟨1, _⟩ => ⟨S4096x128, .f32⟩
  | .local _ .vmem, ⟨2, _⟩ => ⟨S4096x32, .f32⟩
  | .local _ .vmem, ⟨3, _⟩ => ⟨S4096x32, .f32⟩
  | .local _ .vmem, ⟨4, _⟩ => ⟨S4096x8, .f32⟩
  | .local _ .vmem, ⟨5, _⟩ => ⟨S4096x8, .f32⟩
  | .local _ .vmem, ⟨6, _⟩ => ⟨S32x128, .f32⟩
  | .local _ .vmem, ⟨7, _⟩ => ⟨S8x128, .f32⟩
  | .local _ .vmem, ⟨8, _⟩ => ⟨S4096x128, .f32⟩
  | .local _ .vmem, ⟨9, _⟩ => ⟨S4096x128, .f32⟩
  | _, _ => ⟨S4096x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_v7 : Ref sig .tc := ⟨.hbm, 19, rfl⟩
abbrev main_c_3 : Ref sig .tc := ⟨.hbm, 20, rfl⟩
abbrev main_v8 : Ref sig .tc := ⟨.hbm, 21, rfl⟩
abbrev main_v9 : Ref sig .tc := ⟨.hbm, 22, rfl⟩
abbrev main_c_4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_5 : Ref sig .tc := ⟨.hbm, 33, rfl⟩
abbrev main_v19 : Ref sig .tc := ⟨.hbm, 34, rfl⟩
abbrev main_v20 : Ref sig .tc := ⟨.hbm, 35, rfl⟩
abbrev main_c_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_7 : Ref sig .tc := ⟨.hbm, 40, rfl⟩
abbrev main_v24 : Ref sig .tc := ⟨.hbm, 41, rfl⟩
abbrev main_v25 : Ref sig .tc := ⟨.hbm, 42, rfl⟩
abbrev main_c_8 : Ref sig .tc := ⟨.hbm, 43, rfl⟩
abbrev main_call1_v0 : Ref sig .tc := ⟨.hbm, 44, rfl⟩
abbrev main_call1_v1 : Ref sig .tc := ⟨.hbm, 45, rfl⟩
abbrev main_v26 : Ref sig .tc := ⟨.hbm, 46, rfl⟩
abbrev main_c_9 : Ref sig .tc := ⟨.hbm, 47, rfl⟩
abbrev main_v27 : Ref sig .tc := ⟨.hbm, 48, rfl⟩
abbrev main_v28 : Ref sig .tc := ⟨.hbm, 49, rfl⟩
abbrev main_c_10 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_11 : Ref sig .tc := ⟨.hbm, 60, rfl⟩
abbrev main_v38 : Ref sig .tc := ⟨.hbm, 61, rfl⟩
abbrev main_v39 : Ref sig .tc := ⟨.hbm, 62, rfl⟩
abbrev main_c_12 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_13 : Ref sig .tc := ⟨.hbm, 67, rfl⟩
abbrev main_v43 : Ref sig .tc := ⟨.hbm, 68, rfl⟩
abbrev main_v44 : Ref sig .tc := ⟨.hbm, 69, rfl⟩
abbrev main_c_14 : Ref sig .tc := ⟨.hbm, 70, rfl⟩
abbrev main_call2_v0 : Ref sig .tc := ⟨.hbm, 71, rfl⟩
abbrev main_call2_v1 : Ref sig .tc := ⟨.hbm, 72, rfl⟩
abbrev main_v45 : Ref sig .tc := ⟨.hbm, 73, rfl⟩
abbrev main_c_15 : Ref sig .tc := ⟨.hbm, 74, rfl⟩
abbrev main_v46 : Ref sig .tc := ⟨.hbm, 75, rfl⟩
abbrev main_v47 : Ref sig .tc := ⟨.hbm, 76, rfl⟩
abbrev main_c_16 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S4096x200x1_S4096x200x128_0_1_2 : S4096x200x1.BroadcastsInDim S4096x200x128 (![0, 1, 2] : Fin 3 → Fin S4096x200x128.rank)
  bcast_S4096x200x1_S4096x200x32_0_1_2 : S4096x200x1.BroadcastsInDim S4096x200x32 (![0, 1, 2] : Fin 3 → Fin S4096x200x32.rank)
  bcast_S4096x200x1_S4096x200x8_0_1_2 : S4096x200x1.BroadcastsInDim S4096x200x8 (![0, 1, 2] : Fin 3 → Fin S4096x200x8.rank)
  shapeCasts_S4096x200x128_S819200x128 : S4096x200x128.ShapeCasts S819200x128
  shapeCasts_S4096x200x32_S819200x32 : S4096x200x32.ShapeCasts S819200x32
  shapeCasts_S4096x200x8_S819200x8 : S4096x200x8.ShapeCasts S819200x8
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  bitsLt_bf16_f32 : FTy.bits .bf16 < FTy.bits .f32
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S32x128_S32x128_0_0 : ∀ a, (![0, 0] : Fin 2 → Nat) a + S32x128.size a ≤ S32x128.size a
  h_S32x128 : 0 < S32x128.numel
  inb_S8x128_S8x128_0_0 : ∀ a, (![0, 0] : Fin 2 → Nat) a + S8x128.size a ≤ S8x128.size a
  h_S8x128 : 0 < S8x128.numel
  shapeCasts_S819200x128_S4096x200x128 : S819200x128.ShapeCasts S4096x200x128
  gather_S64000x128_S4096x200x1_S4096x200x128_2_0_n_n_0_2_1128_wf : GatherDims.WF S64000x128 S4096x200x1 S4096x200x128 [2] [0] [] [0] [] 2 ![1, 128]
  gather_S192000x32_S4096x200x1_S4096x200x32_2_0_n_n_0_2_132_wf : GatherDims.WF S192000x32 S4096x200x1 S4096x200x32 [2] [0] [] [0] [] 2 ![1, 32]
  gather_S744000x8_S4096x200x1_S4096x200x8_2_0_n_n_0_2_18_wf : GatherDims.WF S744000x8 S4096x200x1 S4096x200x8 [2] [0] [] [0] [] 2 ![1, 8]
  dot_S4096x32_S32x128_S4096x128_1_0_0_1_n_n_wf : DotDims.WF S4096x32 S32x128 S4096x128 [1] [0] [0] [1] [] []
  dot_S4096x8_S8x128_S4096x128_1_0_0_1_n_n_wf : DotDims.WF S4096x8 S8x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S819200x128.size a
  hwx0_0 : ∀ i : grid0.Coords, EltTy.bits .f32 = 32 ∨ (Rect.block (s := S819200x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x32.size a ≤ S819200x32.size a
  hwx0_1 : ∀ i : grid0.Coords, EltTy.bits .f32 = 32 ∨ (Rect.block (s := S819200x32) S4096x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x8.size a ≤ S819200x8.size a
  hwx0_2 : ∀ i : grid0.Coords, EltTy.bits .f32 = 32 ∨ (Rect.block (s := S819200x8) S4096x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .f32 = 32 ∨ (Rect.block (s := S8x128) S8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S819200x128.size a
  hwx0_5 : ∀ i : grid0.Coords, EltTy.bits .f32 = 32 ∨ (Rect.block (s := S819200x128) S4096x128.size (cc0_transform_5 i) (hinb0_5 i)).WholeWords (EltTy.packing .f32)

variable [Facts₀]

def gather_S64000x128_S4096x200x1_S4096x200x128_2_0_n_n_0_2_1128 : GatherDims S64000x128 S4096x200x1 S4096x200x128 where
  offsetDims := [2]
  collapsedSliceDims := [0]
  operandBatchingDims := []
  startIndicesBatchingDims := []
  startIndexMap := [0]
  indexVectorDim := 2
  sliceSizes := ![1, 128]
  wf := gather_S64000x128_S4096x200x1_S4096x200x128_2_0_n_n_0_2_1128_wf
def gather_S192000x32_S4096x200x1_S4096x200x32_2_0_n_n_0_2_132 : GatherDims S192000x32 S4096x200x1 S4096x200x32 where
  offsetDims := [2]
  collapsedSliceDims := [0]
  operandBatchingDims := []
  startIndicesBatchingDims := []
  startIndexMap := [0]
  indexVectorDim := 2
  sliceSizes := ![1, 32]
  wf := gather_S192000x32_S4096x200x1_S4096x200x32_2_0_n_n_0_2_132_wf
def gather_S744000x8_S4096x200x1_S4096x200x8_2_0_n_n_0_2_18 : GatherDims S744000x8 S4096x200x1 S4096x200x8 where
  offsetDims := [2]
  collapsedSliceDims := [0]
  operandBatchingDims := []
  startIndicesBatchingDims := []
  startIndexMap := [0]
  indexVectorDim := 2
  sliceSizes := ![1, 8]
  wf := gather_S744000x8_S4096x200x1_S4096x200x8_2_0_n_n_0_2_18_wf
def dot_S4096x32_S32x128_S4096x128_1_0_0_1_n_n : DotDims S4096x32 S32x128 S4096x128 where
  lhsContracting := [1]
  rhsContracting := [0]
  lhsNonContracting := [0]
  rhsNonContracting := [1]
  lhsBatch := []
  rhsBatch := []
  wf := dot_S4096x32_S32x128_S4096x128_1_0_0_1_n_n_wf
def dot_S4096x8_S8x128_S4096x128_1_0_0_1_n_n : DotDims S4096x8 S8x128 S4096x128 where
  lhsContracting := [1]
  rhsContracting := [0]
  lhsNonContracting := [0]
  rhsNonContracting := [1]
  lhsBatch := []
  rhsBatch := []
  wf := dot_S4096x8_S8x128_S4096x128_1_0_0_1_n_n_wf

abbrev win0_0 : Pipeline.Window sig grid0 :=
  Pipeline.Window.ofSpec (Memref.whole main_v57) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v58) S4096x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v59) S4096x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S8x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v60) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x200 : Shape := ⟨2, ![4096, 200]⟩
abbrev S64000x128 : Shape := ⟨2, ![64000, 128]⟩
abbrev S192000x32 : Shape := ⟨2, ![192000, 32]⟩
abbrev S32x128 : Shape := ⟨2, ![32, 128]⟩
abbrev S744000x8 : Shape := ⟨2, ![744000, 8]⟩
abbrev S8x128 : Shape := ⟨2, ![8, 128]⟩
abbrev S_ : Shape := ⟨0, ![]⟩
abbrev S4096x200x1 : Shape := ⟨3, ![4096, 200, 1]⟩
abbrev S4096x200x128 : Shape := ⟨3, ![4096, 200, 128]⟩
abbrev S4096x200x32 : Shape := ⟨3, ![4096, 200, 32]⟩
abbrev S4096x200x8 : Shape := ⟨3, ![4096, 200, 8]⟩

abbrev nBuf : Space → Nat
  | .hbm => 85
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S64000x128, .f32⟩
  | .hbm, ⟨2, _⟩ => ⟨S192000x32, .f32⟩
  | .hbm, ⟨3, _⟩ => ⟨S32x128, .f32⟩
  | .hbm, ⟨4, _⟩ => ⟨S744000x8, .f32⟩
  | .hbm, ⟨5, _⟩ => ⟨S8x128, .f32⟩
  | .hbm, ⟨6, _⟩ => ⟨S_, .i32⟩
  | .hbm, ⟨7, _⟩ => ⟨S4096x200, .i32⟩
  | .hbm, ⟨8, _⟩ => ⟨S4096x200, .i1⟩
  | .hbm, ⟨9, _⟩ => ⟨S_, .i32⟩
  | .hbm, ⟨10, _⟩ => ⟨S4096x200, .i32⟩
  | .hbm, ⟨11, _⟩ => ⟨S4096x200, .i1⟩
  | .hbm, ⟨12, _⟩ => ⟨S4096x200, .i1⟩
  | .hbm, ⟨13, _⟩ => ⟨S_, .i32⟩
  | .hbm, ⟨14, _⟩ => ⟨S4096x200, .i32⟩
  | .hbm, ⟨15, _⟩ => ⟨S4096x200, .i32⟩
  | .hbm, ⟨16, _⟩ => ⟨S4096x200, .i32⟩
  | .hbm, ⟨17, _⟩ => ⟨S4096x200, .i32⟩
  | .hbm, ⟨18, _⟩ => ⟨S_, .i32⟩
  | .hbm, ⟨19, _⟩ => ⟨S4096x200, .i32⟩
  | .hbm, ⟨20, _⟩ => ⟨S4096x200, .i1⟩
  | .hbm, ⟨21, _⟩ => ⟨S_, .i32⟩
  | .hbm, ⟨22, _⟩ => ⟨S4096x200, .i32⟩
  | .hbm, ⟨23, _⟩ => ⟨S4096x200, .i32⟩
  | .hbm, ⟨24, _⟩ => ⟨S4096x200, .i32⟩
  | .hbm, ⟨25, _⟩ => ⟨S4096x200x1, .i32⟩
  | .hbm, ⟨26, _⟩ => ⟨S4096x200x128, .f32⟩
  | .hbm, ⟨27, _⟩ => ⟨S4096x200x1, .i1⟩
  | .hbm, ⟨28, _⟩ => ⟨S4096x200x1, .f32⟩
  | .hbm, ⟨29, _⟩ => ⟨S4096x200x128, .f32⟩
  | .hbm, ⟨30, _⟩ => ⟨S4096x200x128, .f32⟩
  | .hbm, ⟨31, _⟩ => ⟨S_, .i32⟩
  | .hbm, ⟨32, _⟩ => ⟨S4096x200, .i32⟩
  | .hbm, ⟨33, _⟩ => ⟨S4096x200, .i1⟩
  | .hbm, ⟨34, _⟩ => ⟨S_, .i32⟩
  | .hbm, ⟨35, _⟩ => ⟨S4096x200, .i32⟩
  | .hbm, ⟨36, _⟩ => ⟨S4096x200, .i1⟩
  | .hbm, ⟨37, _⟩ => ⟨S4096x200, .i1⟩
  | .hbm, ⟨38, _⟩ => ⟨S_, .i32⟩
  | .hbm, ⟨39, _⟩ => ⟨S4096x200, .i32⟩
  | .hbm, ⟨40, _⟩ => ⟨S4096x200, .i32⟩
  | .hbm, ⟨41, _⟩ => ⟨S4096x200, .i32⟩
  | .hbm, ⟨42, _⟩ => ⟨S4096x200, .i32⟩
  | .hbm, ⟨43, _⟩ => ⟨S_, .i32⟩
  | .hbm, ⟨44, _⟩ => ⟨S4096x200, .i32⟩
  | .hbm, ⟨45, _⟩ => ⟨S4096x200, .i1⟩
  | .hbm, ⟨46, _⟩ => ⟨S_, .i32⟩
  | .hbm, ⟨47, _⟩ => ⟨S4096x200, .i32⟩
  | .hbm, ⟨48, _⟩ => ⟨S4096x200, .i32⟩
  | .hbm, ⟨49, _⟩ => ⟨S4096x200, .i32⟩
  | .hbm, ⟨50, _⟩ => ⟨S4096x200x1, .i32⟩
  | .hbm, ⟨51, _⟩ => ⟨S4096x200x32, .f32⟩
  | .hbm, ⟨52, _⟩ => ⟨S4096x200x128, .f32⟩
  | .hbm, ⟨53, _⟩ => ⟨S4096x200x1, .i1⟩
  | .hbm, ⟨54, _⟩ => ⟨S4096x200x1, .f32⟩
  | .hbm, ⟨55, _⟩ => ⟨S4096x200x128, .f32⟩
  | .hbm, ⟨56, _⟩ => ⟨S4096x200x128, .f32⟩
  | .hbm, ⟨57, _⟩ => ⟨S4096x200x128, .f32⟩
  | .hbm, ⟨58, _⟩ => ⟨S_, .i32⟩
  | .hbm, ⟨59, _⟩ => ⟨S4096x200, .i32⟩
  | .hbm, ⟨60, _⟩ => ⟨S4096x200, .i1⟩
  | .hbm, ⟨61, _⟩ => ⟨S_, .i32⟩
  | .hbm, ⟨62, _⟩ => ⟨S4096x200, .i32⟩
  | .hbm, ⟨63, _⟩ => ⟨S4096x200, .i1⟩
  | .hbm, ⟨64, _⟩ => ⟨S4096x200, .i1⟩
  | .hbm, ⟨65, _⟩ => ⟨S_, .i32⟩
  | .hbm, ⟨66, _⟩ => ⟨S4096x200, .i32⟩
  | .hbm, ⟨67, _⟩ => ⟨S4096x200, .i32⟩
  | .hbm, ⟨68, _⟩ => ⟨S4096x200, .i32⟩
  | .hbm, ⟨69, _⟩ => ⟨S4096x200, .i32⟩
  | .hbm, ⟨70, _⟩ => ⟨S_, .i32⟩
  | .hbm, ⟨71, _⟩ => ⟨S4096x200, .i32⟩
  | .hbm, ⟨72, _⟩ => ⟨S4096x200, .i1⟩
  | .hbm, ⟨73, _⟩ => ⟨S_, .i32⟩
  | .hbm, ⟨74, _⟩ => ⟨S4096x200, .i32⟩
  | .hbm, ⟨75, _⟩ => ⟨S4096x200, .i32⟩
  | .hbm, ⟨76, _⟩ => ⟨S4096x200, .i32⟩
  | .hbm, ⟨77, _⟩ => ⟨S4096x200x1, .i32⟩
  | .hbm, ⟨78, _⟩ => ⟨S4096x200x8, .f32⟩
  | .hbm, ⟨79, _⟩ => ⟨S4096x200x128, .f32⟩
  | .hbm, ⟨80, _⟩ => ⟨S4096x200x1, .i1⟩
  | .hbm, ⟨81, _⟩ => ⟨S4096x200x1, .f32⟩
  | .hbm, ⟨82, _⟩ => ⟨S4096x200x128, .f32⟩
  | .hbm, ⟨83, _⟩ => ⟨S4096x200x128, .f32⟩
  | .hbm, ⟨84, _⟩ => ⟨S4096x200x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_c_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_9 : Ref sig .tc := ⟨.hbm, 58, rfl⟩
abbrev main_v42 : Ref sig .tc := ⟨.hbm, 59, rfl⟩
abbrev main_v43 : Ref sig .tc := ⟨.hbm, 60, rfl⟩
abbrev main_c_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_12 : Ref sig .tc := ⟨.hbm, 70, rfl⟩
abbrev main_v51 : Ref sig .tc := ⟨.hbm, 71, rfl⟩
abbrev main_v52 : Ref sig .tc := ⟨.hbm, 72, rfl⟩
abbrev main_c_13 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  natLt_1_32 : 1 < 32
  bcast_S4096x200_S4096x200x1_0_1 : S4096x200.BroadcastsInDim S4096x200x1 (![0, 1] : Fin 2 → Fin S4096x200x1.rank)
  bcast_S4096x200x1_S4096x200x128_0_1_2 : S4096x200x1.BroadcastsInDim S4096x200x128 (![0, 1, 2] : Fin 3 → Fin S4096x200x128.rank)
  gather_S64000x128_S4096x200x1_S4096x200x128_2_0_n_n_0_2_1128_wf : GatherDims.WF S64000x128 S4096x200x1 S4096x200x128 [2] [0] [] [0] [] 2 ![1, 128]
  gather_S192000x32_S4096x200x1_S4096x200x32_2_0_n_n_0_2_132_wf : GatherDims.WF S192000x32 S4096x200x1 S4096x200x32 [2] [0] [] [0] [] 2 ![1, 32]
  dot_S4096x200x32_S32x128_S4096x200x128_2_0_01_1_n_n_wf : DotDims.WF S4096x200x32 S32x128 S4096x200x128 [2] [0] [0, 1] [1] [] []
  gather_S744000x8_S4096x200x1_S4096x200x8_2_0_n_n_0_2_18_wf : GatherDims.WF S744000x8 S4096x200x1 S4096x200x8 [2] [0] [] [0] [] 2 ![1, 8]
  dot_S4096x200x8_S8x128_S4096x200x128_2_0_01_1_n_n_wf : DotDims.WF S4096x200x8 S8x128 S4096x200x128 [2] [0] [0, 1] [1] [] []

variable [Facts₀]

def gather_S64000x128_S4096x200x1_S4096x200x128_2_0_n_n_0_2_1128 : GatherDims S64000x128 S4096x200x1 S4096x200x128 where
  offsetDims := [2]
  collapsedSliceDims := [0]
  operandBatchingDims := []
  startIndicesBatchingDims := []
  startIndexMap := [0]
  indexVectorDim := 2
  sliceSizes := ![1, 128]
  wf := gather_S64000x128_S4096x200x1_S4096x200x128_2_0_n_n_0_2_1128_wf
def gather_S192000x32_S4096x200x1_S4096x200x32_2_0_n_n_0_2_132 : GatherDims S192000x32 S4096x200x1 S4096x200x32 where
  offsetDims := [2]
  collapsedSliceDims := [0]
  operandBatchingDims := []
  startIndicesBatchingDims := []
  startIndexMap := [0]
  indexVectorDim := 2
  sliceSizes := ![1, 32]
  wf := gather_S192000x32_S4096x200x1_S4096x200x32_2_0_n_n_0_2_132_wf
def dot_S4096x200x32_S32x128_S4096x200x128_2_0_01_1_n_n : DotDims S4096x200x32 S32x128 S4096x200x128 where
  lhsContracting := [2]
  rhsContracting := [0]
  lhsNonContracting := [0, 1]
  rhsNonContracting := [1]
  lhsBatch := []
  rhsBatch := []
  wf := dot_S4096x200x32_S32x128_S4096x200x128_2_0_01_1_n_n_wf
def gather_S744000x8_S4096x200x1_S4096x200x8_2_0_n_n_0_2_18 : GatherDims S744000x8 S4096x200x1 S4096x200x8 where
  offsetDims := [2]
  collapsedSliceDims := [0]
  operandBatchingDims := []
  startIndicesBatchingDims := []
  startIndexMap := [0]
  indexVectorDim := 2
  sliceSizes := ![1, 8]
  wf := gather_S744000x8_S4096x200x1_S4096x200x8_2_0_n_n_0_2_18_wf
def dot_S4096x200x8_S8x128_S4096x200x128_2_0_01_1_n_n : DotDims S4096x200x8 S8x128 S4096x200x128 where
  lhsContracting := [2]
  rhsContracting := [0]
  lhsNonContracting := [0, 1]
  rhsNonContracting := [1]
  lhsBatch := []
  rhsBatch := []
  wf := dot_S4096x200x8_S8x128_S4096x200x128_2_0_01_1_n_n_wf

class Facts : Prop extends Facts₀ where

variable [Facts]
-- ==== Proof.KernelPayload.lean ====
/-
  What the kernel body stores, at one element.  A grid point holds 4096 tokens (rows).  The body adds three
  things for row `p` and output column `q`: the first block's (already masked) row entry, the second block's masked
  32-feature row projected by the [32, 128] matrix, and the third block's masked 8-feature row projected by the
  [8, 128] matrix.  The casts to bf16 are the identity on the extended reals and each `tpu.matmul` starts from a
  zero accumulator, so each product is a plain finite sum.
-/
import proofs.«112496_j58806692216985_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

theorem lhs32_0 (j : S4096x128.Idx) (q : dot_S4096x32_S32x128_S4096x128_1_0_0_1_n_n.contr.Idx) :
    (dot_S4096x32_S32x128_S4096x128_1_0_0_1_n_n.lhsIdx j q 0).val = (j 0).val := by
  unfold DotDims.lhsIdx
  rw [dif_neg (show ¬(0 : Fin S4096x32.rank) ∈ dot_S4096x32_S32x128_S4096x128_1_0_0_1_n_n.lhsBatch by decide), dif_pos (show (0 : Fin S4096x32.rank) ∈ dot_S4096x32_S32x128_S4096x128_1_0_0_1_n_n.lhsNonContracting by decide)]
  rfl
theorem lhs32_1 (j : S4096x128.Idx) (q : dot_S4096x32_S32x128_S4096x128_1_0_0_1_n_n.contr.Idx) :
    (dot_S4096x32_S32x128_S4096x128_1_0_0_1_n_n.lhsIdx j q 1).val = (q ⟨0, by decide⟩).val :=
  dot_S4096x32_S32x128_S4096x128_1_0_0_1_n_n.lhsIdx_val_of_single rfl j q
theorem rhs32_0 (j : S4096x128.Idx) (q : dot_S4096x32_S32x128_S4096x128_1_0_0_1_n_n.contr.Idx) :
    (dot_S4096x32_S32x128_S4096x128_1_0_0_1_n_n.rhsIdx j q 0).val = (q ⟨0, by decide⟩).val :=
  dot_S4096x32_S32x128_S4096x128_1_0_0_1_n_n.rhsIdx_val_of_single rfl j q
theorem rhs32_1 (j : S4096x128.Idx) (q : dot_S4096x32_S32x128_S4096x128_1_0_0_1_n_n.contr.Idx) :
    (dot_S4096x32_S32x128_S4096x128_1_0_0_1_n_n.rhsIdx j q 1).val = (j 1).val := by
  unfold DotDims.rhsIdx
  rw [dif_neg (show ¬(1 : Fin S32x128.rank) ∈ dot_S4096x32_S32x128_S4096x128_1_0_0_1_n_n.rhsBatch by decide), dif_pos (show (1 : Fin S32x128.rank) ∈ dot_S4096x32_S32x128_S4096x128_1_0_0_1_n_n.rhsNonContracting by decide)]
  rfl

theorem lhs8_0 (j : S4096x128.Idx) (q : dot_S4096x8_S8x128_S4096x128_1_0_0_1_n_n.contr.Idx) :
    (dot_S4096x8_S8x128_S4096x128_1_0_0_1_n_n.lhsIdx j q 0).val = (j 0).val := by
  unfold DotDims.lhsIdx
  rw [dif_neg (show ¬(0 : Fin S4096x8.rank) ∈ dot_S4096x8_S8x128_S4096x128_1_0_0_1_n_n.lhsBatch by decide), dif_pos (show (0 : Fin S4096x8.rank) ∈ dot_S4096x8_S8x128_S4096x128_1_0_0_1_n_n.lhsNonContracting by decide)]
  rfl
theorem lhs8_1 (j : S4096x128.Idx) (q : dot_S4096x8_S8x128_S4096x128_1_0_0_1_n_n.contr.Idx) :
    (dot_S4096x8_S8x128_S4096x128_1_0_0_1_n_n.lhsIdx j q 1).val = (q ⟨0, by decide⟩).val :=
  dot_S4096x8_S8x128_S4096x128_1_0_0_1_n_n.lhsIdx_val_of_single rfl j q
theorem rhs8_0 (j : S4096x128.Idx) (q : dot_S4096x8_S8x128_S4096x128_1_0_0_1_n_n.contr.Idx) :
    (dot_S4096x8_S8x128_S4096x128_1_0_0_1_n_n.rhsIdx j q 0).val = (q ⟨0, by decide⟩).val :=
  dot_S4096x8_S8x128_S4096x128_1_0_0_1_n_n.rhsIdx_val_of_single rfl j q
theorem rhs8_1 (j : S4096x128.Idx) (q : dot_S4096x8_S8x128_S4096x128_1_0_0_1_n_n.contr.Idx) :
    (dot_S4096x8_S8x128_S4096x128_1_0_0_1_n_n.rhsIdx j q 1).val = (j 1).val := by
  unfold DotDims.rhsIdx
  rw [dif_neg (show ¬(1 : Fin S8x128.rank) ∈ dot_S4096x8_S8x128_S4096x128_1_0_0_1_n_n.rhsBatch by decide), dif_pos (show (1 : Fin S8x128.rank) ∈ dot_S4096x8_S8x128_S4096x128_1_0_0_1_n_n.rhsNonContracting by decide)]
  rfl

/-- A row block [4096, 32] times the projection [32, 128] into a zero accumulator, at row `p` and column `q`: the
    sum over the 32 features of the row's entry times the projection's. -/
theorem matmul32_apply (l : FVec Ideal S4096x32 .bf16) (r : FVec Ideal S32x128 .bf16) (p : Fin 4096) (q : Fin 128) :
    matmul dot_S4096x32_S32x128_S4096x128_1_0_0_1_n_n none l r (constant S4096x128 .f32 0x00000000#32) (ix2 p q)
      = ∑ k : Fin 32, l (ix2 p k) * r (ix2 k q) := by
  simp only [matmul]
  rw [Ideal.matmul_constant_zero_apply, ← Equiv.sum_comp (ValueIdx.contrEquiv1 dot_S4096x32_S32x128_S4096x128_1_0_0_1_n_n 32 rfl rfl).symm]
  refine Finset.sum_congr rfl fun k _ => ?_
  have hk := ValueIdx.contrEquiv1_symm_val dot_S4096x32_S32x128_S4096x128_1_0_0_1_n_n 32 rfl rfl k
  have el : dot_S4096x32_S32x128_S4096x128_1_0_0_1_n_n.lhsIdx (ix2 p q) ((ValueIdx.contrEquiv1 dot_S4096x32_S32x128_S4096x128_1_0_0_1_n_n 32 rfl rfl).symm k) = ix2 p k := funext fun a => Fin.ext (by
    match a with
    | ⟨0, _⟩ => exact lhs32_0 _ _
    | ⟨1, _⟩ => exact (lhs32_1 _ _).trans hk)
  have er : dot_S4096x32_S32x128_S4096x128_1_0_0_1_n_n.rhsIdx (ix2 p q) ((ValueIdx.contrEquiv1 dot_S4096x32_S32x128_S4096x128_1_0_0_1_n_n 32 rfl rfl).symm k) = ix2 k q := funext fun a => Fin.ext (by
    match a with
    | ⟨0, _⟩ => exact (rhs32_0 _ _).trans hk
    | ⟨1, _⟩ => exact rhs32_1 _ _)
  rw [el, er]

/-- A row block [4096, 8] times the projection [8, 128] into a zero accumulator, at row `p` and column `q`: the
    sum over the 8 features of the row's entry times the projection's. -/
theorem matmul8_apply (l : FVec Ideal S4096x8 .bf16) (r : FVec Ideal S8x128 .bf16) (p : Fin 4096) (q : Fin 128) :
    matmul dot_S4096x8_S8x128_S4096x128_1_0_0_1_n_n none l r (constant S4096x128 .f32 0x00000000#32) (ix2 p q)
      = ∑ k : Fin 8, l (ix2 p k) * r (ix2 k q) := by
  simp only [matmul]
  rw [Ideal.matmul_constant_zero_apply, ← Equiv.sum_comp (ValueIdx.contrEquiv1 dot_S4096x8_S8x128_S4096x128_1_0_0_1_n_n 8 rfl rfl).symm]
  refine Finset.sum_congr rfl fun k _ => ?_
  have hk := ValueIdx.contrEquiv1_symm_val dot_S4096x8_S8x128_S4096x128_1_0_0_1_n_n 8 rfl rfl k
  have el : dot_S4096x8_S8x128_S4096x128_1_0_0_1_n_n.lhsIdx (ix2 p q) ((ValueIdx.contrEquiv1 dot_S4096x8_S8x128_S4096x128_1_0_0_1_n_n 8 rfl rfl).symm k) = ix2 p k := funext fun a => Fin.ext (by
    match a with
    | ⟨0, _⟩ => exact lhs8_0 _ _
    | ⟨1, _⟩ => exact (lhs8_1 _ _).trans hk)
  have er : dot_S4096x8_S8x128_S4096x128_1_0_0_1_n_n.rhsIdx (ix2 p q) ((ValueIdx.contrEquiv1 dot_S4096x8_S8x128_S4096x128_1_0_0_1_n_n 8 rfl rfl).symm k) = ix2 k q := funext fun a => Fin.ext (by
    match a with
    | ⟨0, _⟩ => exact (rhs8_0 _ _).trans hk
    | ⟨1, _⟩ => exact rhs8_1 _ _)
  rw [el, er]

/-- The stored value at row `p`, column `q`, from the five loaded blocks. -/
theorem pay_apply (x0 : Vec Ideal S4096x128 .f32) (x1 : Vec Ideal S4096x32 .f32) (x2 : Vec Ideal S4096x8 .f32)
    (x3 : Vec Ideal S32x128 .f32) (x4 : Vec Ideal S8x128 .f32) (p : Fin 4096) (q : Fin 128) :
    k0_pay1 x0 x1 x2 x3 x4 (ix2 p q)
      = (x0 (ix2 p q) + ∑ k : Fin 32, x1 (ix2 p k) * x3 (ix2 k q)) + ∑ k : Fin 8, x2 (ix2 p k) * x4 (ix2 k q) := by
  unfold k0_pay1
  show (addf (addf (shapeCast S4096x128 x0 shapeCasts_S4096x128_S4096x128)
          (matmul dot_S4096x32_S32x128_S4096x128_1_0_0_1_n_n none (truncf .bf16 (shapeCast S4096x32 x1 shapeCasts_S4096x32_S4096x32) bitsLt_bf16_f32) (truncf .bf16 x3 bitsLt_bf16_f32) (constant S4096x128 .f32 0x00000000#32)))
        (matmul dot_S4096x8_S8x128_S4096x128_1_0_0_1_n_n none (truncf .bf16 (shapeCast S4096x8 x2 shapeCasts_S4096x8_S4096x8) bitsLt_bf16_f32) (truncf .bf16 x4 bitsLt_bf16_f32) (constant S4096x128 .f32 0x00000000#32))
      : FVec Ideal S4096x128 .f32) (ix2 p q) = _
  rw [ValueIdx.addf_apply, ValueIdx.addf_apply, matmul32_apply, matmul8_apply, shapeCast_self, shapeCast_self, shapeCast_self]
  rfl

end Cert.KernelIdeal.Payload

end
-- ==== Proof.KernelArray.lean ====
/-
  The pallas_call's output array as one function of its operands.

  The call tiles the 819200 tokens into 200 blocks of 4096 rows; grid point `t` reads rows `4096 t … 4096 t + 4095` of
  the three token-major operands and the two whole projection matrices, and writes the same rows of the output.  So
  row `n`, column `e` of the output is the first operand's entry plus the two projections of row `n`: no row
  depends on the tiling.  The blocks cover every row, so this is the whole array after the run.
-/
import proofs.«112496_j58806692216985_1_alg».proof.Proof.Gen.KernelIdeal.Frame
import proofs.«112496_j58806692216985_1_alg».proof.Proof.KernelPayload
import Idealize.ShloMosaic.Lib.Pipeline.Value
import Idealize.ShloMosaic.Lib.ValueIdx

set_option maxRecDepth 16384

noncomputable section

namespace Cert.KernelIdeal.Tokens

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

theorem hz : (![0, 0] : Fin 2 → Nat) = fun _ => 0 := funext fun a => by fin_cases a <;> rfl

/-- Token `n`'s output at column `e`: its first-block entry plus its two projected rows. -/
def tokenRow (A0 : S819200x128.Idx → EReal) (A1 : S819200x32.Idx → EReal) (A2 : S819200x8.Idx → EReal)
    (P1 : S32x128.Idx → EReal) (P2 : S8x128.Idx → EReal) (n : Fin 819200) (e : Fin 128) : EReal :=
  (A0 (ix2 n e) + ∑ k : Fin 32, A1 (ix2 n k) * P1 (ix2 k e)) + ∑ k : Fin 8, A2 (ix2 n k) * P2 (ix2 k e)

/-- The whole [819200, 128] output. -/
def flatOut (A0 : S819200x128.Idx → EReal) (A1 : S819200x32.Idx → EReal) (A2 : S819200x8.Idx → EReal)
    (P1 : S32x128.Idx → EReal) (P2 : S8x128.Idx → EReal) : S819200x128.Idx → EReal :=
  fun i => tokenRow A0 A1 A2 P1 P2 ⟨(i 0).val, (i 0).isLt⟩ ⟨(i 1).val, (i 1).isLt⟩

/-- The block indices over the grid: the token-major windows are at block row `t`, the projections stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Operand 0's block at point `t` is rows `4096 t …` of the operand. -/
theorem blk0_apply (c : Dev nD) (t : Fin cfg0.N) (x : S4096x128.Idx) (k : S819200x128.Idx)
    (hk0 : (k 0).val = 4096 * t.val + (x 0).val) (hk1 : (k 1).val = (x 1).val) :
    (iblk m c 0 t : Vec Ideal S4096x128 .f32) x = (V m c main_v57 : S819200x128.Idx → EReal) k := by
  obtain ⟨e0, e1, -⟩ := idx_facts t
  unfold iblk
  rw [View.read_apply]
  show V m c main_v57 _ = V m c main_v57 _
  congr 1
  funext a
  apply Fin.ext
  match a with
  | ⟨0, _⟩ => show win0_0.index t 0 * 4096 + 1 * (x 0).val = (k 0).val; rw [e0, hk0]; omega
  | ⟨1, _⟩ => show win0_0.index t 1 * 128 + 1 * (x 1).val = (k 1).val; rw [e1, hk1]; omega

/-- Operand 1's block at point `t`. -/
theorem blk1_apply (c : Dev nD) (t : Fin cfg0.N) (x : S4096x32.Idx) (k : S819200x32.Idx)
    (hk0 : (k 0).val = 4096 * t.val + (x 0).val) (hk1 : (k 1).val = (x 1).val) :
    (iblk m c 1 t : Vec Ideal S4096x32 .f32) x = (V m c main_v58 : S819200x32.Idx → EReal) k := by
  obtain ⟨-, -, e0, e1, -⟩ := idx_facts t
  unfold iblk
  rw [View.read_apply]
  show V m c main_v58 _ = V m c main_v58 _
  congr 1
  funext a
  apply Fin.ext
  match a with
  | ⟨0, _⟩ => show win0_1.index t 0 * 4096 + 1 * (x 0).val = (k 0).val; rw [e0, hk0]; omega
  | ⟨1, _⟩ => show win0_1.index t 1 * 32 + 1 * (x 1).val = (k 1).val; rw [e1, hk1]; omega

/-- Operand 2's block at point `t`. -/
theorem blk2_apply (c : Dev nD) (t : Fin cfg0.N) (x : S4096x8.Idx) (k : S819200x8.Idx)
    (hk0 : (k 0).val = 4096 * t.val + (x 0).val) (hk1 : (k 1).val = (x 1).val) :
    (iblk m c 2 t : Vec Ideal S4096x8 .f32) x = (V m c main_v59 : S819200x8.Idx → EReal) k := by
  obtain ⟨-, -, -, -, e0, e1, -⟩ := idx_facts t
  unfold iblk
  rw [View.read_apply]
  show V m c main_v59 _ = V m c main_v59 _
  congr 1
  funext a
  apply Fin.ext
  match a with
  | ⟨0, _⟩ => show win0_2.index t 0 * 4096 + 1 * (x 0).val = (k 0).val; rw [e0, hk0]; omega
  | ⟨1, _⟩ => show win0_2.index t 1 * 8 + 1 * (x 1).val = (k 1).val; rw [e1, hk1]; omega

/-- The first projection's block is the whole matrix at every point. -/
theorem blk3_eq (c : Dev nD) (t : Fin cfg0.N) :
    (iblk m c 3 t : Vec Ideal S32x128 .f32) = (V m c main_arg3 : S32x128.Idx → EReal) := by
  obtain ⟨-, -, -, -, -, -, e0, e1, -⟩ := idx_facts t
  funext x
  unfold iblk
  rw [View.read_apply]
  show V m c main_arg3 _ = V m c main_arg3 _
  congr 1
  funext a
  apply Fin.ext
  match a with
  | ⟨0, _⟩ => show win0_3.index t 0 * 32 + 1 * (x 0).val = (x 0).val; rw [e0]; omega
  | ⟨1, _⟩ => show win0_3.index t 1 * 128 + 1 * (x 1).val = (x 1).val; rw [e1]; omega

/-- The second projection's block is the whole matrix at every point. -/
theorem blk4_eq (c : Dev nD) (t : Fin cfg0.N) :
    (iblk m c 4 t : Vec Ideal S8x128 .f32) = (V m c main_arg5 : S8x128.Idx → EReal) := by
  obtain ⟨-, -, -, -, -, -, -, -, e0, e1, -⟩ := idx_facts t
  funext x
  unfold iblk
  rw [View.read_apply]
  show V m c main_arg5 _ = V m c main_arg5 _
  congr 1
  funext a
  apply Fin.ext
  match a with
  | ⟨0, _⟩ => show win0_4.index t 0 * 8 + 1 * (x 0).val = (x 0).val; rw [e0]; omega
  | ⟨1, _⟩ => show win0_4.index t 1 * 128 + 1 * (x 1).val = (x 1).val; rw [e1]; omega

/-- One point's stored value at a block index `j` is the output function at the array index `i` it lands on, when
    the point's loaded blocks are rows `b …` of the operands (`b` the block's first row). -/
theorem point_value (x0 : Vec Ideal S4096x128 .f32) (x1 : Vec Ideal S4096x32 .f32) (x2 : Vec Ideal S4096x8 .f32)
    (x3 : Vec Ideal S32x128 .f32) (x4 : Vec Ideal S8x128 .f32)
    (A0 : S819200x128.Idx → EReal) (A1 : S819200x32.Idx → EReal) (A2 : S819200x8.Idx → EReal)
    (P1 : S32x128.Idx → EReal) (P2 : S8x128.Idx → EReal) (b : Nat) (hb : b + 4096 ≤ 819200)
    (h0 : ∀ (p : Fin 4096) (q : Fin 128), x0 (ix2 p q) = A0 (ix2 ⟨b + p.val, by have := p.isLt; omega⟩ q))
    (h1 : ∀ (p : Fin 4096) (k : Fin 32), x1 (ix2 p k) = A1 (ix2 ⟨b + p.val, by have := p.isLt; omega⟩ k))
    (h2 : ∀ (p : Fin 4096) (k : Fin 8), x2 (ix2 p k) = A2 (ix2 ⟨b + p.val, by have := p.isLt; omega⟩ k))
    (h3 : x3 = P1) (h4 : x4 = P2)
    (j : S4096x128.Idx) (i : S819200x128.Idx) (hi0 : (i 0).val = b + (j 0).val) (hi1 : (i 1).val = (j 1).val) :
    k0_pay1 x0 x1 x2 x3 x4 j = flatOut A0 A1 A2 P1 P2 i := by
  obtain ⟨p, q, rfl⟩ : ∃ (p : Fin 4096) (q : Fin 128), j = ix2 p q := ⟨j 0, j 1, eq_ix2 j⟩
  rw [Payload.pay_apply]
  unfold flatOut tokenRow
  have hn : (⟨(i 0).val, (i 0).isLt⟩ : Fin 819200) = ⟨b + p.val, by have := p.isLt; omega⟩ := Fin.ext hi0
  have he : (⟨(i 1).val, (i 1).isLt⟩ : Fin 128) = q := Fin.ext hi1
  rw [hn, he, h0, h3, h4]
  simp only [h1, h2]

/-- WHAT POINT `t` WRITES BACK is block `t` of the output function of the operands as the call finds them. -/
theorem flushed_eq (c : Dev nD) (t : Fin cfg0.N) :
    (dats m 0 c).flushed 5 t = ((cfg0.win 5).blk t).view.read (Elt Ideal)
      (flatOut (V m c main_v57) (V m c main_v58) (V m c main_v59) (V m c main_arg3) (V m c main_arg5)) := by
  show (cfg0.win 5).cut (grid0.coords t) ((dats m 0 c).after 5 t) = _
  rw [after0_5]
  unfold out0_5
  rw [View.canon_unit_zero hz]
  simp only [View.ld_unit_zero (S := S4096x128) hz, View.ld_unit_zero (S := S4096x32) hz, View.ld_unit_zero (S := S4096x8) hz,
    View.ld_unit_zero (S := S32x128) hz, View.ld_unit_zero (S := S8x128) hz]
  obtain ⟨-, -, -, -, -, -, -, -, -, -, e0, e1⟩ := idx_facts t
  have ht : t.val < 200 := by have h := t.isLt; have hN : cfg0.N = 200 := N_0; omega
  funext j
  refine point_value (iblk m c 0 t) (iblk m c 1 t) (iblk m c 2 t) (iblk m c 3 t) (iblk m c 4 t)
    (V m c main_v57) (V m c main_v58) (V m c main_v59) (V m c main_arg3) (V m c main_arg5) (4096 * t.val) (by omega)
    (fun p q => blk0_apply m c t (ix2 p q) (ix2 ⟨4096 * t.val + p.val, by have := p.isLt; omega⟩ q) rfl rfl)
    (fun p k => blk1_apply m c t (ix2 p k) (ix2 ⟨4096 * t.val + p.val, by have := p.isLt; omega⟩ k) rfl rfl)
    (fun p k => blk2_apply m c t (ix2 p k) (ix2 ⟨4096 * t.val + p.val, by have := p.isLt; omega⟩ k) rfl rfl)
    (blk3_eq m c t) (blk4_eq m c t) j (((cfg0.win 5).blk t).view.emb j) ?_ ?_
  · show win0_5.index t 0 * 4096 + 1 * (j 0).val = 4096 * t.val + (j 0).val
    rw [e0]; omega
  · show win0_5.index t 1 * 128 + 1 * (j 1).val = (j 1).val
    rw [e1]; omega

/-- An index of the output is in point `t`'s block iff each coordinate is in the block's range. -/
theorem mem_blk (t : Fin cfg0.N) (i : S819200x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v60).slice (win0_5.rect t)).set ↔ _
  rw [View.set_slice_whole, Rect.mem_set_unit]
  exact Iff.rfl

/-- Every row is in some point's block: row `n` in point `n / 4096`'s. -/
theorem cover (i : S819200x128.Idx) :
    ∃ t : Fin cfg0.N, (cfg0.win 5).flush t = true ∧ i ∈ ((cfg0.win 5).blk t).view.set := by
  have hi0 : (i 0).val < 819200 := (i 0).isLt
  have hi1 : (i 1).val < 128 := (i 1).isLt
  obtain ⟨t, ht⟩ : ∃ t : Fin cfg0.N, t.val = (i 0).val / 4096 :=
    ⟨⟨(i 0).val / 4096, by have hN : cfg0.N = 200 := N_0; omega⟩, rfl⟩
  obtain ⟨-, -, -, -, -, -, -, -, -, -, e0, e1⟩ := idx_facts t
  refine ⟨t, flush0_5 t, ?_⟩
  rw [mem_blk]
  intro a
  match a with
  | ⟨0, _⟩ => show win0_5.index t 0 * 4096 ≤ (i 0).val ∧ (i 0).val < win0_5.index t 0 * 4096 + 4096; rw [e0, ht]; omega
  | ⟨1, _⟩ => show win0_5.index t 1 * 128 ≤ (i 1).val ∧ (i 1).val < win0_5.index t 1 * 128 + 128; rw [e1]; omega

/-- THE OUTPUT ARRAY after the run. -/
theorem final (c : Dev nD) : (dats m 0 c).arrAt 5 cfg0.N
    = flatOut (V m c main_v57) (V m c main_v58) (V m c main_v59) (V m c main_arg3) (V m c main_arg5) :=
  (dats m 0 c).arrAt_eq_of_cover 5 _ (fun t _ => flushed_eq m c t) cover

end Cert.KernelIdeal.Tokens

end
-- ==== Proof.KernelHost.lean ====
/-
  What the host lines before the pallas_call leave in its three token-major operands.

  For a block of ids `[lo, hi)` with an `n`-row table: the membership bit of a token id `x` is
  `lo ≤ x ∧ x < hi`; the row offset is `x - lo` where the bit is set and `0` elsewhere; the row index is the offset,
  wrapped by `+ n` when negative (jnp's index normalisation); the gathered row is the table's row at that index; the
  mask column is the bit as a float.  Each operand is the gathered rows times the mask column broadcast along the
  features, with the [4096, 200] token axes flattened to 819200.
-/
import proofs.«112496_j58806692216985_1_alg».proof.Proof.Gen.KernelIdeal.Frame
import Idealize.ShloMosaic.Lib.StableHlo.Run
import Idealize.ShloMosaic.PureOps.Ideal

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo

/-- The token ids' type: a [4096, 200] array of 32-bit words. -/
abbrev Ids := (⟨S4096x200, .i32⟩ : BufTy).Contents (Elt Ideal)

/-- A 32-bit constant at every token. -/
def splat (w : BitVec 32) : Ids :=
  broadcastInDim S4096x200 ![] bcast_S_S4096x200 (constantI S_ 32 w)

/-- The membership bit: `lo ≤ x < hi`, signed. -/
def inBlock (x : Ids) (lo hi : BitVec 32) : (⟨S4096x200, .i1⟩ : BufTy).Contents (Elt Ideal) :=
  andi (cmpi .sge x (splat lo)) (cmpi .slt x (splat hi))

/-- The row offset: `x - lo` inside the block, `0` outside. -/
def rowOffset (x : Ids) (lo hi : BitVec 32) : Ids :=
  select (inBlock x lo hi) (subi x (splat lo)) (broadcastInDim S4096x200 ![] bcast_S_S4096x200 (id (constantI S_ 32 0#32)))

/-- The row index: the offset, plus the table's row count where it is negative. -/
def rowIndex (x : Ids) (lo hi n : BitVec 32) : Ids :=
  select (cmpi .slt (rowOffset x lo hi) (splat 0#32)) (addi (rowOffset x lo hi) (splat n)) (rowOffset x lo hi)

/-- The mask column: the membership bit as a float, one per token. -/
def maskCol (x : Ids) (lo hi : BitVec 32) : FVec Ideal S4096x200x1 .f32 :=
  uitofp (F := Ideal) .f32 (broadcastInDim S4096x200x1 ![0, 1] bcast_S4096x200_S4096x200x1_0_1 (inBlock x lo hi))

variable (m : (ℓ : Loc nD τ sig) → Buf (Elt Ideal) ℓ)

/-- The first block's masked rows, per token. -/
def rows0 (c : Dev nD) : FVec Ideal S4096x200x128 .f32 :=
  mulf (F := Ideal) (Host.gather gather_S64000x128_S4096x200x1_S4096x200x128_2_0_n_n_0_2_1128 (m ((c : Thread nD τ).loc main_arg1))
      (broadcastInDim S4096x200x1 ![0, 1] bcast_S4096x200_S4096x200x1_0_1 (rowIndex (m ((c : Thread nD τ).loc main_arg0)) 0#32 64000#32 64000#32)))
    (broadcastInDim S4096x200x128 ![0, 1, 2] bcast_S4096x200x1_S4096x200x128_0_1_2 (maskCol (m ((c : Thread nD τ).loc main_arg0)) 0#32 64000#32))

/-- The second block's masked rows. -/
def rows1 (c : Dev nD) : FVec Ideal S4096x200x32 .f32 :=
  mulf (F := Ideal) (Host.gather gather_S192000x32_S4096x200x1_S4096x200x32_2_0_n_n_0_2_132 (m ((c : Thread nD τ).loc main_arg2))
      (broadcastInDim S4096x200x1 ![0, 1] bcast_S4096x200_S4096x200x1_0_1 (rowIndex (m ((c : Thread nD τ).loc main_arg0)) 64000#32 256000#32 192000#32)))
    (broadcastInDim S4096x200x32 ![0, 1, 2] bcast_S4096x200x1_S4096x200x32_0_1_2 (maskCol (m ((c : Thread nD τ).loc main_arg0)) 64000#32 256000#32))

/-- The third block's masked rows. -/
def rows2 (c : Dev nD) : FVec Ideal S4096x200x8 .f32 :=
  mulf (F := Ideal) (Host.gather gather_S744000x8_S4096x200x1_S4096x200x8_2_0_n_n_0_2_18 (m ((c : Thread nD τ).loc main_arg4))
      (broadcastInDim S4096x200x1 ![0, 1] bcast_S4096x200_S4096x200x1_0_1 (rowIndex (m ((c : Thread nD τ).loc main_arg0)) 256000#32 1000000#32 744000#32)))
    (broadcastInDim S4096x200x8 ![0, 1, 2] bcast_S4096x200x1_S4096x200x8_0_1_2 (maskCol (m ((c : Thread nD τ).loc main_arg0)) 256000#32 1000000#32))

set_option maxHeartbeats 32000000 in
/-- Operand 0 of the call: the first block's masked rows, tokens flattened. -/
theorem operand0 (c : Dev nD) :
    (V m c main_v57 : S819200x128.Idx → EReal) = shapeCast S819200x128 (rows0 m c) shapeCasts_S4096x200x128_S819200x128 := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 32000000 in
/-- Operand 1: the second block's masked rows, tokens flattened. -/
theorem operand1 (c : Dev nD) :
    (V m c main_v58 : S819200x32.Idx → EReal) = shapeCast S819200x32 (rows1 m c) shapeCasts_S4096x200x32_S819200x32 := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

set_option maxHeartbeats 32000000 in
/-- Operand 2: the third block's masked rows, tokens flattened. -/
theorem operand2 (c : Dev nD) :
    (V m c main_v59 : S819200x8.Idx → EReal) = shapeCast S819200x8 (rows2 m c) shapeCasts_S4096x200x8_S819200x8 := by
  dsimp only [V, V0]
  simp only [hostOps0, hostOps0_1, hostOps0_2, hostOps0_3, hostOps0_4, hostOps0_5, hostOps0_6, List.flatten_cons, List.flatten_nil, List.append_nil, List.cons_append, List.nil_append]
  after_results_simp
  rfl

end Cert.KernelIdeal.HostSide

end
-- ==== Proof.KernelRun.lean ====
/-
  The idealized kernel's run, read: after @main the result array holds, for token `(b, s)` and column `e`, the first
  block's masked row entry plus the second and third blocks' masked rows projected.  The call's output is the
  [819200, 128] array of the previous module, the host line after the call only reshapes it to [4096, 200, 128], and
  the host lines before the call supply the operands; a reshape between [4096, 200, D] and [819200, D] keeps the
  row-major position, so token `(b, s)` is row `200 b + s`.
-/
import proofs.«112496_j58806692216985_1_alg».proof.Proof.KernelArray
import proofs.«112496_j58806692216985_1_alg».proof.Proof.KernelHost
import Idealize.ShloMosaic.Lib.StableHlo.Run

set_option maxRecDepth 16384

noncomputable section

namespace Cert.KernelIdeal.Tokens

open Cert.KernelIdeal Cert.KernelIdeal.Gen Cert.KernelIdeal.HostSide Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- Flattening the token axes: row `200 b + s` of the flat array is token `(b, s)`. -/
theorem flatten_apply {D : Nat} (X : (⟨3, ![4096, 200, D]⟩ : Shape).Idx → EReal)
    (h : (⟨3, ![4096, 200, D]⟩ : Shape).ShapeCasts ⟨2, ![819200, D]⟩) (b : Fin 4096) (s : Fin 200) (k : Fin D) :
    shapeCast (⟨2, ![819200, D]⟩ : Shape) X h (ix2 ⟨200 * b.val + s.val, by have := b.isLt; have := s.isLt; omega⟩ k) = X (ix3 b s k) := by
  refine shapeCast_apply X h _ _ ?_
  rw [Shape.rowMajor_val_three, Shape.rowMajor_val_two]
  show (b.val * 200 + s.val) * D + k.val = (200 * b.val + s.val) * D + k.val
  rw [Nat.mul_comm b.val 200]

/-- And back. -/
theorem unflatten_apply (Y : (⟨2, ![819200, 128]⟩ : Shape).Idx → EReal)
    (h : (⟨2, ![819200, 128]⟩ : Shape).ShapeCasts ⟨3, ![4096, 200, 128]⟩) (b : Fin 4096) (s : Fin 200) (e : Fin 128) :
    shapeCast (⟨3, ![4096, 200, 128]⟩ : Shape) Y h (ix3 b s e) = Y (ix2 ⟨200 * b.val + s.val, by have := b.isLt; have := s.isLt; omega⟩ e) := by
  refine shapeCast_apply Y h _ _ ?_
  rw [Shape.rowMajor_val_three, Shape.rowMajor_val_two]
  show (200 * b.val + s.val) * 128 + e.val = (b.val * 200 + s.val) * 128 + e.val
  omega

theorem flatOut_apply (A0 : S819200x128.Idx → EReal) (A1 : S819200x32.Idx → EReal) (A2 : S819200x8.Idx → EReal)
    (P1 : S32x128.Idx → EReal) (P2 : S8x128.Idx → EReal) (n : Fin 819200) (e : Fin 128) :
    flatOut A0 A1 A2 P1 P2 (ix2 n e) = tokenRow A0 A1 A2 P1 P2 n e := rfl

/-- The result array of the idealized kernel, as a function of the arguments. -/
def result (c : Dev nD) : S4096x200x128.Idx → EReal :=
  shapeCast S4096x200x128
    (flatOut (shapeCast S819200x128 (rows0 m c) shapeCasts_S4096x200x128_S819200x128)
      (shapeCast S819200x32 (rows1 m c) shapeCasts_S4096x200x32_S819200x32)
      (shapeCast S819200x8 (rows2 m c) shapeCasts_S4096x200x8_S819200x8)
      (m ((c : Thread nD τ).loc main_arg3)) (m ((c : Thread nD τ).loc main_arg5)))
    shapeCasts_S819200x128_S4096x200x128

/-- The host line after the call reshapes the call's output; with the output and the operands read, that is `result`. -/
theorem tail_value (c : Dev nD) :
    (Pipeline.afterTail₀ cfgs (dats m) 0 (V0 m) [hostOps1] c main_v61 : S4096x200x128.Idx → EReal) = result m c := by
  unfold Pipeline.afterTail₀
  show StableHlo.after hostOps1 _ (Proc.devRef .tc main_v61) = _
  after_results
  rw [Pipeline.withArrays_arr spec0 launch0.win.arr_inj c _ _ 5]
  show shapeCast S4096x200x128 ((dats m 0 c).arrAt 5 cfg0.N) shapeCasts_S819200x128_S4096x200x128 = _
  rw [final, operand0, operand1, operand2, V_main_arg3, V_main_arg5]
  rfl

/-- The result at token `(b, s)`, column `e`. -/
theorem result_apply (c : Dev nD) (b : Fin 4096) (s : Fin 200) (e : Fin 128) :
    result m c (ix3 b s e)
      = (rows0 m c (ix3 b s e) + ∑ k : Fin 32, rows1 m c (ix3 b s k) * (m ((c : Thread nD τ).loc main_arg3) : S32x128.Idx → EReal) (ix2 k e))
        + ∑ k : Fin 8, rows2 m c (ix3 b s k) * (m ((c : Thread nD τ).loc main_arg5) : S8x128.Idx → EReal) (ix2 k e) := by
  unfold result
  rw [unflatten_apply, flatOut_apply]
  unfold tokenRow
  simp only [flatten_apply]

/-- Every weakly fair execution of the idealized kernel ends with the result array at `result` and the arguments as
    launched. -/
theorem run (ρ : Dev nD → PrngReg) :
    θ_run defs (onTc (τ := τ) (main (F := Ideal))) ⟨m, fun _ => 0, ρ⟩ (fun r => ∀ c : Dev nD,
      r.2.mem ((c.tc : Thread nD τ).loc main_v61) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_v61 (Pipeline.mem_restRefs_of main_v61 (by decide) (by decide))).trans (tail_value m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c)))⟩) (run_main m ρ)

end Cert.KernelIdeal.Tokens

end
-- ==== Proof.RefSide.lean ====
/-
  The reference's result at token `(b, s)` and output column `e`, in terms of its own stages: each block's gathered
  row times the block's mask column, the second and third blocks' rows first projected by their matrices (a
  `dot_general` over the feature axis, a plain sum on the extended reals), the three contributions added in order.
-/
import proofs.«112496_j58806692216985_1_alg».proof.Proof.Gen.ReferenceIdeal.Read

noncomputable section

namespace Cert.ReferenceIdeal.Tokens

open Cert.ReferenceIdeal Cert.ReferenceIdeal.Gen Cert.ReferenceIdeal.Read Idealize.ShloMosaic Idealize.ShloMosaic.ValueIdx

theorem col18 (b : Fin 4096) (s : Fin 200) (e : Fin 128) : idx_main_v18 (ix3 b s e) = ix3 b s (0 : Fin 1) :=
  funext fun a => Fin.ext (by
    match a with
    | ⟨0, _⟩ => rfl
    | ⟨1, _⟩ => rfl
    | ⟨2, _⟩ => rfl)

theorem col39 (b : Fin 4096) (s : Fin 200) (e : Fin 128) : idx_main_v39 (ix3 b s e) = ix3 b s (0 : Fin 1) :=
  funext fun a => Fin.ext (by
    match a with
    | ⟨0, _⟩ => rfl
    | ⟨1, _⟩ => rfl
    | ⟨2, _⟩ => rfl)

theorem col61 (b : Fin 4096) (s : Fin 200) (e : Fin 128) : idx_main_v61 (ix3 b s e) = ix3 b s (0 : Fin 1) :=
  funext fun a => Fin.ext (by
    match a with
    | ⟨0, _⟩ => rfl
    | ⟨1, _⟩ => rfl
    | ⟨2, _⟩ => rfl)

theorem lrow36 (b : Fin 4096) (s : Fin 200) (e : Fin 128) (k : Fin 32) : lidx_main_v36 (ix3 b s e) k = ix3 b s k :=
  funext fun a => Fin.ext (by
    match a with
    | ⟨0, _⟩ => rfl
    | ⟨1, _⟩ => rfl
    | ⟨2, _⟩ => rfl)

theorem rcol36 (b : Fin 4096) (s : Fin 200) (e : Fin 128) (k : Fin 32) : ridx_main_v36 (ix3 b s e) k = ix2 k e :=
  funext fun a => Fin.ext (by
    match a with
    | ⟨0, _⟩ => rfl
    | ⟨1, _⟩ => rfl)

theorem lrow58 (b : Fin 4096) (s : Fin 200) (e : Fin 128) (k : Fin 8) : lidx_main_v58 (ix3 b s e) k = ix3 b s k :=
  funext fun a => Fin.ext (by
    match a with
    | ⟨0, _⟩ => rfl
    | ⟨1, _⟩ => rfl
    | ⟨2, _⟩ => rfl)

theorem rcol58 (b : Fin 4096) (s : Fin 200) (e : Fin 128) (k : Fin 8) : ridx_main_v58 (ix3 b s e) k = ix2 k e :=
  funext fun a => Fin.ext (by
    match a with
    | ⟨0, _⟩ => rfl
    | ⟨1, _⟩ => rfl)

/-- The reference's result at `(b, s, e)`. -/
theorem result_apply (x0 : (⟨S4096x200, .i32⟩ : BufTy).Contents (Elt Ideal)) (x1 : (⟨S64000x128, .f32⟩ : BufTy).Contents (Elt Ideal))
    (x2 : (⟨S192000x32, .f32⟩ : BufTy).Contents (Elt Ideal)) (x3 : (⟨S32x128, .f32⟩ : BufTy).Contents (Elt Ideal))
    (x4 : (⟨S744000x8, .f32⟩ : BufTy).Contents (Elt Ideal)) (x5 : (⟨S8x128, .f32⟩ : BufTy).Contents (Elt Ideal))
    (b : Fin 4096) (s : Fin 200) (e : Fin 128) :
    val_main_v63 (F := Ideal) x0 x1 x2 x3 x4 x5 (ix3 b s e)
      = (val_main_v15 (F := Ideal) x0 x1 (ix3 b s e) * val_main_v17 (F := Ideal) x0 (ix3 b s (0 : Fin 1))
          + (∑ k : Fin 32, val_main_v35 (F := Ideal) x0 x2 (ix3 b s k) * x3 (ix2 k e)) * val_main_v38 (F := Ideal) x0 (ix3 b s (0 : Fin 1)))
        + (∑ k : Fin 8, val_main_v57 (F := Ideal) x0 x4 (ix3 b s k) * x5 (ix2 k e)) * val_main_v60 (F := Ideal) x0 (ix3 b s (0 : Fin 1)) := by
  rw [val_main_v63_apply, val_main_v41_apply, val_main_v19_apply, val_main_v18_apply, val_main_v40_apply, val_main_v36_apply,
    val_main_v39_apply, val_main_v62_apply, val_main_v58_apply, val_main_v61_apply]
  simp only [col18, col39, col61, lrow36, rcol36, lrow58, rcol58, Ideal.mulf_def, Ideal.addf_def]

end Cert.ReferenceIdeal.Tokens

end
-- ==== Proof.TokenLaw.lean ====
/-
  The arithmetic the two programs differ by, stated away from either program.

  Each token contributes, for a block with a projection, the gathered row `a` (a row of the block's table) times the
  projection's column `p`, switched on or off by the token's membership bit `μ ∈ {0, 1}`.  One program masks the row
  before projecting, `∑ k, (a k * μ) * p k`; the other projects and then masks, `(∑ k, a k * p k) * μ`.  On the
  extended reals multiplication does not distribute over sums in general, but for `μ = 1` both sides are the plain
  sum and for `μ = 0` both are `0` (`x * 0 = 0` for every extended real), so no finiteness is needed.

  The row index is also spelt two ways: `select b x 0` against `x * zext b` on 32-bit words; for a one-bit `b`
  they are the same word.
-/
import Idealize.ShloMosaic.PureOps.Ideal
import Idealize.ShloMosaic.Lib.ValueIdx

noncomputable section

namespace Cert.TokenLaw

open Idealize.ShloMosaic

/-- A membership bit read as an unsigned integer, then as an extended real, is `0` or `1`. -/
theorem bit_zero_or_one (b : BitVec 1) :
    (((b.toNat : ℕ) : ℝ) : EReal) = 0 ∨ (((b.toNat : ℕ) : ℝ) : EReal) = 1 := by
  have hb : b.toNat < 2 := b.isLt
  have h : b.toNat = 0 ∨ b.toNat = 1 := by omega
  rcases h with h | h
  · left; rw [h]; simp
  · right; rw [h]; simp

/-- Masking the row before the projection or the projected value after it is the same, for a mask that is `0` or `1`. -/
theorem sum_mask_mul {n : Nat} (a p : Fin n → EReal) (μ : EReal) (hμ : μ = 0 ∨ μ = 1) :
    ∑ k : Fin n, (a k * μ) * p k = (∑ k : Fin n, a k * p k) * μ := by
  rcases hμ with rfl | rfl
  · simp
  · simp

/-- The row offset kept where the bit is set and `0` elsewhere, by a select or by a product with the widened bit. -/
theorem select_eq_mul_bit (b : BitVec 1) (x : BitVec 32) :
    Scalar.select b x 0#32 = IntOp.muli x (b.setWidth 32) := by
  by_cases h : b = 1#1
  · subst h
    rw [ValueIdx.select_one]
    show x = x * (1#1 : BitVec 1).setWidth 32
    rw [show (1#1 : BitVec 1).setWidth 32 = 1#32 from by decide, BitVec.mul_one]
  · have h0 := ValueIdx.eq_zero_of_ne_one h
    subst h0
    rw [ValueIdx.select_zero]
    show 0#32 = x * (0#1 : BitVec 1).setWidth 32
    rw [show (0#1 : BitVec 1).setWidth 32 = 0#32 from by decide, BitVec.mul_zero]

end Cert.TokenLaw

end
-- ==== Proof.Bridge.lean ====
/-
  The two programs compute one function.

  Stage by stage the host lines of the kernel's program and of the reference agree: the membership bits and mask
  columns are the same terms; the row indices differ only in how the offset is kept inside the block and zeroed
  outside it (a select against a product with the widened bit: `TokenLaw.select_eq_mul_bit`), so the gathered rows are
  the same arrays.  What is left is where the mask is applied to the projected blocks: the kernel masks a row before
  projecting it, the reference masks the projected value; for a mask that is `0` or `1` these agree
  (`TokenLaw.sum_mask_mul`).
-/
import proofs.«112496_j58806692216985_1_alg».proof.Proof.KernelRun
import proofs.«112496_j58806692216985_1_alg».proof.Proof.RefSide
import proofs.«112496_j58806692216985_1_alg».proof.Proof.TokenLaw

set_option maxRecDepth 16384

noncomputable section

namespace Cert.Bridge

open Idealize.ShloMosaic Idealize.ShloMosaic.TcCoe Idealize.SL.Sem Idealize.ShloMosaic.ValueIdx
open Cert.KernelIdeal.HostSide (Ids splat inBlock rowOffset rowIndex maskCol rows0 rows1 rows2)
open Cert.ReferenceIdeal.Read

/-! ## The membership bits and the mask columns are the same terms -/

theorem bit0 (x : Ids) : inBlock x 0#32 64000#32 = val_main_v4 (F := Ideal) x := rfl
theorem bit1 (x : Ids) : inBlock x 64000#32 256000#32 = val_main_v24 (F := Ideal) x := rfl
theorem bit2 (x : Ids) : inBlock x 256000#32 1000000#32 = val_main_v46 (F := Ideal) x := rfl

theorem mask0 (x : Ids) : maskCol x 0#32 64000#32 = val_main_v17 (F := Ideal) x := rfl
theorem mask1 (x : Ids) : maskCol x 64000#32 256000#32 = val_main_v38 (F := Ideal) x := rfl
theorem mask2 (x : Ids) : maskCol x 256000#32 1000000#32 = val_main_v60 (F := Ideal) x := rfl

/-! ## The row indices are the same words -/

theorem offset0 (x : Ids) : rowOffset x 0#32 64000#32 = val_main_v8 (F := Ideal) x := by
  funext j
  show Scalar.select (inBlock x 0#32 64000#32 j) (IntOp.subi (x j) (splat 0#32 j)) 0#32
    = IntOp.muli (IntOp.subi (x j) (splat 0#32 j)) ((inBlock x 0#32 64000#32 j).setWidth 32)
  exact Cert.TokenLaw.select_eq_mul_bit _ _

theorem offset1 (x : Ids) : rowOffset x 64000#32 256000#32 = val_main_v28 (F := Ideal) x := by
  funext j
  show Scalar.select (inBlock x 64000#32 256000#32 j) (IntOp.subi (x j) (splat 64000#32 j)) 0#32
    = IntOp.muli (IntOp.subi (x j) (splat 64000#32 j)) ((inBlock x 64000#32 256000#32 j).setWidth 32)
  exact Cert.TokenLaw.select_eq_mul_bit _ _

theorem offset2 (x : Ids) : rowOffset x 256000#32 1000000#32 = val_main_v50 (F := Ideal) x := by
  funext j
  show Scalar.select (inBlock x 256000#32 1000000#32 j) (IntOp.subi (x j) (splat 256000#32 j)) 0#32
    = IntOp.muli (IntOp.subi (x j) (splat 256000#32 j)) ((inBlock x 256000#32 1000000#32 j).setWidth 32)
  exact Cert.TokenLaw.select_eq_mul_bit _ _

theorem index0 (x : Ids) : rowIndex x 0#32 64000#32 64000#32 = val_main_v13 (F := Ideal) x := by
  unfold rowIndex; rw [offset0]; rfl
theorem index1 (x : Ids) : rowIndex x 64000#32 256000#32 192000#32 = val_main_v33 (F := Ideal) x := by
  unfold rowIndex; rw [offset1]; rfl
theorem index2 (x : Ids) : rowIndex x 256000#32 1000000#32 744000#32 = val_main_v55 (F := Ideal) x := by
  unfold rowIndex; rw [offset2]; rfl

/-! ## A mask column broadcast along the features, read at a token -/

theorem col_bcast_apply {D : Nat} (col : (⟨3, ![4096, 200, 1]⟩ : Shape).Idx → EReal)
    (h : (⟨3, ![4096, 200, 1]⟩ : Shape).BroadcastsInDim ⟨3, ![4096, 200, D]⟩ ![0, 1, 2]) (b : Fin 4096) (s : Fin 200) (k : Fin D) :
    broadcastInDim (⟨3, ![4096, 200, D]⟩ : Shape) ![0, 1, 2] h col (ix3 b s k) = col (ix3 b s (0 : Fin 1)) :=
  broadcastInDim_apply _ h col _ _ (fun a => match a with
    | ⟨0, _⟩ => by show b.val = if (4096 : Nat) = 1 then 0 else b.val; rw [if_neg (by decide)]
    | ⟨1, _⟩ => by show s.val = if (200 : Nat) = 1 then 0 else s.val; rw [if_neg (by decide)]
    | ⟨2, _⟩ => by show 0 = if (1 : Nat) = 1 then 0 else k.val; rw [if_pos rfl])

/-- A mask column's entry is `0` or `1`. -/
theorem mask_zero_or_one (w : (⟨3, ![4096, 200, 1]⟩ : Shape).Idx → BitVec 1) (j : (⟨3, ![4096, 200, 1]⟩ : Shape).Idx) :
    (uitofp (F := Ideal) .f32 w : FVec Ideal ⟨3, ![4096, 200, 1]⟩ .f32) j = 0 ∨ (uitofp (F := Ideal) .f32 w : FVec Ideal ⟨3, ![4096, 200, 1]⟩ .f32) j = 1 :=
  Cert.TokenLaw.bit_zero_or_one (w j)

variable (m : (ℓ : Loc Cert.KernelIdeal.nD Cert.KernelIdeal.τ Cert.KernelIdeal.sig) → Buf (Elt Ideal) ℓ)

/-! ## The kernel's masked rows, in the reference's stages -/

theorem rows0_apply (c : Dev Cert.KernelIdeal.nD) (b : Fin 4096) (s : Fin 200) (e : Fin 128) :
    rows0 m c (ix3 b s e)
      = val_main_v15 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (ix3 b s e)
        * val_main_v17 (F := Ideal) (m ((c : Thread Cert.KernelIdeal.nD Cert.KernelIdeal.τ).loc Cert.KernelIdeal.main_arg0)) (ix3 b s (0 : Fin 1)) := by
  unfold rows0
  rw [ValueIdx.mulf_apply, col_bcast_apply, index0, mask0]
  rfl

theorem rows1_apply (c : Dev Cert.KernelIdeal.nD) (b : Fin 4096) (s : Fin 200) (k : Fin 32) :
    rows1 m c (ix3 b s k)
      = val_main_v35 (F := Ideal) (m ((c : Thread Cert.KernelIdeal.nD Cert.KernelIdeal.τ).loc Cert.KernelIdeal.main_arg0)) (m ((c : Thread Cert.KernelIdeal.nD Cert.KernelIdeal.τ).loc Cert.KernelIdeal.main_arg2)) (ix3 b s k)
        * val_main_v38 (F := Ideal) (m ((c : Thread Cert.KernelIdeal.nD Cert.KernelIdeal.τ).loc Cert.KernelIdeal.main_arg0)) (ix3 b s (0 : Fin 1)) := by
  unfold rows1
  rw [ValueIdx.mulf_apply, col_bcast_apply, index1, mask1]
  rfl

theorem rows2_apply (c : Dev Cert.KernelIdeal.nD) (b : Fin 4096) (s : Fin 200) (k : Fin 8) :
    rows2 m c (ix3 b s k)
      = val_main_v57 (F := Ideal) (m ((c : Thread Cert.KernelIdeal.nD Cert.KernelIdeal.τ).loc Cert.KernelIdeal.main_arg0)) (m ((c : Thread Cert.KernelIdeal.nD Cert.KernelIdeal.τ).loc Cert.KernelIdeal.main_arg4)) (ix3 b s k)
        * val_main_v60 (F := Ideal) (m ((c : Thread Cert.KernelIdeal.nD Cert.KernelIdeal.τ).loc Cert.KernelIdeal.main_arg0)) (ix3 b s (0 : Fin 1)) := by
  unfold rows2
  rw [ValueIdx.mulf_apply, col_bcast_apply, index2, mask2]
  rfl

/-! ## One function -/

/-- The idealized kernel's result array is the reference's result stage of the same arguments. -/
theorem kernel_eq_reference (c : Dev Cert.KernelIdeal.nD) :
    Cert.KernelIdeal.Tokens.result m c
      = val_main_v63 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
          (m ((c : Thread Cert.KernelIdeal.nD Cert.KernelIdeal.τ).loc Cert.KernelIdeal.main_arg2)) (m ((c : Thread Cert.KernelIdeal.nD Cert.KernelIdeal.τ).loc Cert.KernelIdeal.main_arg3))
          (m ((c : Thread Cert.KernelIdeal.nD Cert.KernelIdeal.τ).loc Cert.KernelIdeal.main_arg4)) (m ((c : Thread Cert.KernelIdeal.nD Cert.KernelIdeal.τ).loc Cert.KernelIdeal.main_arg5)) := by
  funext i
  obtain ⟨b, s, e, rfl⟩ : ∃ (b : Fin 4096) (s : Fin 200) (e : Fin 128), i = ix3 b s e := ⟨i 0, i 1, i 2, eq_ix3 i⟩
  rw [Cert.KernelIdeal.Tokens.result_apply, Cert.ReferenceIdeal.Tokens.result_apply, rows0_apply]
  simp only [rows1_apply, rows2_apply]
  congr 1
  · congr 1
    exact Cert.TokenLaw.sum_mask_mul (fun k => _) (fun k => _) _ (mask_zero_or_one _ _)
  · exact Cert.TokenLaw.sum_mask_mul (fun k => _) (fun k => _) _ (mask_zero_or_one _ _)

end Cert.Bridge

end
-- ==== Proof.lean ====
/-
  The certificate's proof.

  The kernel embeds each token id by three blocks of ids, each with its own table: the token's row of its block's
  table (index `id - lo` inside the block, row 0 outside it), masked by the block's membership bit; the second and
  third blocks' rows (32 and 8 features) are projected to 128 columns by their matrices; the three contributions are
  added.  Its host lines gather and mask the rows, the pallas_call projects and adds, 4096 tokens per grid point.
  The reference gathers, projects and then masks.  On the extended reals the two agree index by index: the row
  indices are the same words, and masking before or after a projection is the same for a mask that is `0` or `1`.

  The three frames are the generated ones (the reference's is its run with the result dropped); the idealization
  rewrote nothing, so `preserves` is `True`; `algebraic` pairs the kernel's run, read as one function of the
  arguments, with the reference's run.
-/
import proofs.«112496_j58806692216985_1_alg».proof.Defs
import proofs.«112496_j58806692216985_1_alg».proof.Proof.Gen.Kernel
import proofs.«112496_j58806692216985_1_alg».proof.Proof.Gen.Kernel.Frame
import proofs.«112496_j58806692216985_1_alg».proof.Proof.Gen.KernelIdeal
import proofs.«112496_j58806692216985_1_alg».proof.Proof.Gen.KernelIdeal.Frame
import proofs.«112496_j58806692216985_1_alg».proof.Proof.Gen.ReferenceIdeal
import proofs.«112496_j58806692216985_1_alg».proof.Proof.Gen.ReferenceIdeal.Run
import proofs.«112496_j58806692216985_1_alg».proof.Proof.Gen.ReferenceIdeal.Read
import proofs.«112496_j58806692216985_1_alg».proof.Proof.Gen.Pre_finite_inputs
import proofs.«112496_j58806692216985_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result array at the reference's result stage of the shared arguments. -/
theorem algebraic : Cert.algebraic_KernelIdeal_ReferenceIdeal := by
  intro m ρ m' ρ' _ hagree
  refine ⟨fun c => Cert.KernelIdeal.Tokens.result m c, Cert.KernelIdeal.Tokens.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v63_eq, (hagree c).1, (hagree c).2.1, (hagree c).2.2.1, (hagree c).2.2.2.1,
    (hagree c).2.2.2.2.1, (hagree c).2.2.2.2.2]
  exact (Cert.Bridge.kernel_eq_reference m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
